-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S100000x512 .f32) (main_arg1 : IVec S2x3200000 32) (main_arg2 : FVec F S512x64 .f32) (main_arg3 : FVec F S64 .f32) (main_arg4 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S1 : Shape := ⟨1, ![1]⟩
abbrev S100000x64 : Shape := ⟨2, ![100000, 64]⟩
abbrev S2000x512 : Shape := ⟨2, ![2000, 512]⟩
abbrev S2000x64 : Shape := ⟨2, ![2000, 64]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S1x64 : Shape := ⟨2, ![1, 64]⟩
abbrev S1x1 : Shape := ⟨2, ![1, 1]⟩
abbrev S10000x64 : Shape := ⟨2, ![10000, 64]⟩

abbrev nBuf : Space → Nat
  | .hbm => 65
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S1, .f32⟩
  | .hbm, ⟨5, _⟩ => ⟨S100000x64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000, .f32⟩
  | .hbm, ⟨45, _⟩ => ⟨S3200000, .f32⟩
  | .hbm, ⟨46, _⟩ => ⟨S_, .i32⟩
  | .hbm, ⟨47, _⟩ => ⟨S3200000, .i32⟩
  | .hbm, ⟨48, _⟩ => ⟨S3200000, .i1⟩
  | .hbm, ⟨49, _⟩ => ⟨S_, .i32⟩
  | .hbm, ⟨50, _⟩ => ⟨S3200000, .i32⟩
  | .hbm, ⟨51, _⟩ => ⟨S3200000, .i32⟩
  | .hbm, ⟨52, _⟩ => ⟨S3200000, .i32⟩
  | .hbm, ⟨53, _⟩ => ⟨S3200000x1, .i32⟩
  | .hbm, ⟨54, _⟩ => ⟨S3200000x64, .f32⟩
  | .hbm, ⟨55, _⟩ => ⟨S3200000x1, .f32⟩
  | .hbm, ⟨56, _⟩ => ⟨S3200000x64, .f32⟩
  | .hbm, ⟨57, _⟩ => ⟨S3200000x64, .f32⟩
  | .hbm, ⟨58, _⟩ => ⟨S_, .f32⟩
  | .hbm, ⟨59, _⟩ => ⟨S100000x64, .f32⟩
  | .hbm, ⟨60, _⟩ => ⟨S3200000x1, .i32⟩
  | .hbm, ⟨61, _⟩ => ⟨S100000x64, .f32⟩
  | .hbm, ⟨62, _⟩ => ⟨S1x64, .f32⟩
  | .hbm, ⟨63, _⟩ => ⟨S1x1, .f32⟩
  | .hbm, ⟨64, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x1, .f32⟩
  | .local _ .vmem, ⟨9, _⟩ => ⟨S10000x64, .f32⟩
  | .local _ .vmem, ⟨10, _⟩ => ⟨S10000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S1_S1x1 : S1.ShapeCasts S1x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  dot_S2000x512_S512x64_S2000x64_1_0_0_1_n_n_wf : DotDims.WF S2000x512 S512x64 S2000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S1, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S100000x64, .f32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000, .f32⟩
  | .hbm, ⟨45, _⟩ => ⟨S3200000, .f32⟩
  | .hbm, ⟨46, _⟩ => ⟨S_, .i32⟩
  | .hbm, ⟨47, _⟩ => ⟨S3200000, .i32⟩
  | .hbm, ⟨48, _⟩ => ⟨S3200000, .i1⟩
  | .hbm, ⟨49, _⟩ => ⟨S_, .i32⟩
  | .hbm, ⟨50, _⟩ => ⟨S3200000, .i32⟩
  | .hbm, ⟨51, _⟩ => ⟨S3200000, .i32⟩
  | .hbm, ⟨52, _⟩ => ⟨S3200000, .i32⟩
  | .hbm, ⟨53, _⟩ => ⟨S3200000x1, .i32⟩
  | .hbm, ⟨54, _⟩ => ⟨S3200000x64, .f32⟩
  | .hbm, ⟨55, _⟩ => ⟨S3200000x1, .f32⟩
  | .hbm, ⟨56, _⟩ => ⟨S3200000x64, .f32⟩
  | .hbm, ⟨57, _⟩ => ⟨S3200000x64, .f32⟩
  | .hbm, ⟨58, _⟩ => ⟨S_, .f32⟩
  | .hbm, ⟨59, _⟩ => ⟨S100000x64, .f32⟩
  | .hbm, ⟨60, _⟩ => ⟨S3200000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .i1⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S1_S_ : S1.ShapeCasts S_
  dot_S100000x512_S512x64_S100000x64_1_0_0_1_n_n_wf : DotDims.WF S100000x512 S512x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.Spec.lean ====
/-
  What the program computes, as functions of its argument arrays.

  A graph convolution without self loops followed by a parametric ReLU.  With features `X` (100000 × 512), weights
  `W` (512 × 64), a list of 3200000 edges (source row, target row), a bias `b` (64) and a slope `a` (1):

  * `proj X W` is the dense projection: entry (r, j) is the sum over k < 512 of X[r, k] · W[k, j];
  * `mid x e` is the edge aggregation of a projected array `x`: the in-degree of every target counted by a
    scatter-add of ones, the factor deg^(-1/2) where the degree is positive and 0 elsewhere, each edge's message
    x[source] scaled by the two endpoint factors, and the messages scatter-added at their targets.  Both
    programs apply this same chain to their projected array, so it is carried as one function and never opened;
  * `act y b a` adds the bias along the last axis and applies v ↦ v if v ≥ 0, a · v otherwise, entry by entry;
  * `result` is their composition.
-/
import proofs.«121923_j15762529976321_1_alg».proof.KernelIdeal
import proofs.«121923_j15762529976321_1_alg».proof.Proof.Gen.KernelIdeal
import Idealize.ShloMosaic.Lib.ValueIdx
import Idealize.ShloMosaic.PureOps.Ideal

noncomputable section

namespace Cert.KernelIdeal.Spec

open Cert.KernelIdeal Cert.KernelIdeal.Gen Idealize.ShloMosaic Idealize.ShloMosaic.TcCoe Idealize.ShloMosaic.ValueIdx

/-- Row `r`, column `k` of the feature array. -/
abbrev featAt (r : Fin 100000) (k : Fin 512) : S100000x512.Idx := ix2 r k
/-- Row `k`, column `j` of the weight array. -/
abbrev weightAt (k : Fin 512) (j : Fin 64) : S512x64.Idx := ix2 k j

/-- The dense projection `X · W`: entry (r, j) is the sum over k of X[r, k] · W[k, j], on the extended reals. -/
def proj (X : S100000x512.Idx → EReal) (W : S512x64.Idx → EReal) : S100000x64.Idx → EReal :=
  fun i => ∑ k : Fin 512, X (featAt ⟨(i 0).val, (i 0).isLt⟩ k) * W (weightAt k ⟨(i 1).val, (i 1).isLt⟩)

variable {F : FTy → Type} [FloatOps F]

set_option maxRecDepth 8192 in
/-- The edge aggregation of a projected array `x` along the edge list `e` (row 0 the sources, row 1 the targets):
    degree count, inverse square roots, scaled messages, scatter-add at the targets. -/
def mid (x : (⟨S100000x64, .f32⟩ : BufTy).Contents (Elt F)) (e : (⟨S2x3200000, .i32⟩ : BufTy).Contents (Elt F)) :
    (⟨S100000x64, .f32⟩ : BufTy).Contents (Elt F) :=
  Host.scatterAdd scatter_S100000x64_S3200000x1_S3200000x64_1_0_0_1 (broadcastInDim S100000x64 ![] bcast_S_S100000x64 (constant S_ .f32 0x00000000#32)) (broadcastInDim S3200000x1 ![0] bcast_S3200000_S3200000x1_0 (shapeCast _ (extractStridedSlice S1x3200000 ![1, 0] e slices_S2x3200000_S1x3200000_1_0) shapeCasts_S1x3200000_S3200000)) (mulf (Host.gather gather_S100000x64_S3200000x1_S3200000x64_1_0_n_n_0_1_164 x (broadcastInDim S3200000x1 ![0] bcast_S3200000_S3200000x1_0 (select (cmpi .slt (shapeCast _ (extractStridedSlice S1x3200000 ![0, 0] e slices_S2x3200000_S1x3200000_0_0) shapeCasts_S1x3200000_S3200000) (broadcastInDim S3200000 ![] bcast_S_S3200000 (constantI S_ 32 0#32))) (addi (shapeCast _ (extractStridedSlice S1x3200000 ![0, 0] e slices_S2x3200000_S1x3200000_0_0) shapeCasts_S1x3200000_S3200000) (broadcastInDim S3200000 ![] bcast_S_S3200000 (constantI S_ 32 100000#32))) (shapeCast _ (extractStridedSlice S1x3200000 ![0, 0] e slices_S2x3200000_S1x3200000_0_0) shapeCasts_S1x3200000_S3200000)))) (broadcastInDim S3200000x64 ![0, 1] bcast_S3200000x1_S3200000x64_0_1 (broadcastInDim S3200000x1 ![0] bcast_S3200000_S3200000x1_0 (mulf (Host.gather gather_S100000_S3200000x1_S3200000_n_0_n_n_0_1_1 (select (cmpf (F := F) .ogt (Host.scatterAdd scatter_S100000_S3200000x1_S3200000_n_0_0_1 (broadcastInDim S100000 ![] bcast_S_S100000 (constant S_ .f32 0x00000000#32)) (broadcastInDim S3200000x1 ![0] bcast_S3200000_S3200000x1_0 (shapeCast _ (extractStridedSlice S1x3200000 ![1, 0] e slices_S2x3200000_S1x3200000_1_0) shapeCasts_S1x3200000_S3200000)) (broadcastInDim S3200000 ![] bcast_S_S3200000 (constant S_ .f32 0x3F800000#32))) (broadcastInDim S100000 ![] bcast_S_S100000 (constant S_ .f32 0x00000000#32))) (Host.rsqrt (maximumf (Host.scatterAdd scatter_S100000_S3200000x1_S3200000_n_0_0_1 (broadcastInDim S100000 ![] bcast_S_S100000 (constant S_ .f32 0x00000000#32)) (broadcastInDim S3200000x1 ![0] bcast_S3200000_S3200000x1_0 (shapeCast _ (extractStridedSlice S1x3200000 ![1, 0] e slices_S2x3200000_S1x3200000_1_0) shapeCasts_S1x3200000_S3200000)) (broadcastInDim S3200000 ![] bcast_S_S3200000 (constant S_ .f32 0x3F800000#32))) (broadcastInDim S100000 ![] bcast_S_S100000 (constant S_ .f32 0x3F800000#32)))) (broadcastInDim S100000 ![] bcast_S_S100000 (id (constant S_ .f32 0x00000000#32)))) (broadcastInDim S3200000x1 ![0] bcast_S3200000_S3200000x1_0 (select (cmpi .slt (shapeCast _ (extractStridedSlice S1x3200000 ![0, 0] e slices_S2x3200000_S1x3200000_0_0) shapeCasts_S1x3200000_S3200000) (broadcastInDim S3200000 ![] bcast_S_S3200000 (constantI S_ 32 0#32))) (addi (shapeCast _ (extractStridedSlice S1x3200000 ![0, 0] e slices_S2x3200000_S1x3200000_0_0) shapeCasts_S1x3200000_S3200000) (broadcastInDim S3200000 ![] bcast_S_S3200000 (constantI S_ 32 100000#32))) (shapeCast _ (extractStridedSlice S1x3200000 ![0, 0] e slices_S2x3200000_S1x3200000_0_0) shapeCasts_S1x3200000_S3200000)))) (Host.gather gather_S100000_S3200000x1_S3200000_n_0_n_n_0_1_1 (select (cmpf (F := F) .ogt (Host.scatterAdd scatter_S100000_S3200000x1_S3200000_n_0_0_1 (broadcastInDim S100000 ![] bcast_S_S100000 (constant S_ .f32 0x00000000#32)) (broadcastInDim S3200000x1 ![0] bcast_S3200000_S3200000x1_0 (shapeCast _ (extractStridedSlice S1x3200000 ![1, 0] e slices_S2x3200000_S1x3200000_1_0) shapeCasts_S1x3200000_S3200000)) (broadcastInDim S3200000 ![] bcast_S_S3200000 (constant S_ .f32 0x3F800000#32))) (broadcastInDim S100000 ![] bcast_S_S100000 (constant S_ .f32 0x00000000#32))) (Host.rsqrt (maximumf (Host.scatterAdd scatter_S100000_S3200000x1_S3200000_n_0_0_1 (broadcastInDim S100000 ![] bcast_S_S100000 (constant S_ .f32 0x00000000#32)) (broadcastInDim S3200000x1 ![0] bcast_S3200000_S3200000x1_0 (shapeCast _ (extractStridedSlice S1x3200000 ![1, 0] e slices_S2x3200000_S1x3200000_1_0) shapeCasts_S1x3200000_S3200000)) (broadcastInDim S3200000 ![] bcast_S_S3200000 (constant S_ .f32 0x3F800000#32))) (broadcastInDim S100000 ![] bcast_S_S100000 (constant S_ .f32 0x3F800000#32)))) (broadcastInDim S100000 ![] bcast_S_S100000 (id (constant S_ .f32 0x00000000#32)))) (broadcastInDim S3200000x1 ![0] bcast_S3200000_S3200000x1_0 (select (cmpi .slt (shapeCast _ (extractStridedSlice S1x3200000 ![1, 0] e slices_S2x3200000_S1x3200000_1_0) shapeCasts_S1x3200000_S3200000) (broadcastInDim S3200000 ![] bcast_S_S3200000 (constantI S_ 32 0#32))) (addi (shapeCast _ (extractStridedSlice S1x3200000 ![1, 0] e slices_S2x3200000_S1x3200000_1_0) shapeCasts_S1x3200000_S3200000) (broadcastInDim S3200000 ![] bcast_S_S3200000 (constantI S_ 32 100000#32))) (shapeCast _ (extractStridedSlice S1x3200000 ![1, 0] e slices_S2x3200000_S1x3200000_1_0) shapeCasts_S1x3200000_S3200000))))))))

/-- Bias and parametric ReLU, entry by entry: with v = y[r, j] + b[j], the entry is v when v ≥ 0 and a · v otherwise. -/
def act (y : S100000x64.Idx → Elt F .f32) (b : S64.Idx → Elt F .f32) (a : S1.Idx → Elt F .f32) : S100000x64.Idx → Elt F .f32 :=
  fun i => Scalar.select
    (FloatOps.cmpf .oge (FloatOps.addf (y i) (b (ix1 ⟨(i 1).val, (i 1).isLt⟩))) (FloatOps.ofBits .f32 0x00000000#32))
    (FloatOps.addf (y i) (b (ix1 ⟨(i 1).val, (i 1).isLt⟩)))
    (FloatOps.mulf (a (ix1 ⟨0, Nat.one_pos⟩)) (FloatOps.addf (y i) (b (ix1 ⟨(i 1).val, (i 1).isLt⟩))))

/-- The whole computation on the extended reals. -/
def result (X : S100000x512.Idx → EReal) (e : (⟨S2x3200000, .i32⟩ : BufTy).Contents (Elt Ideal)) (W : S512x64.Idx → EReal)
    (b : S64.Idx → EReal) (a : S1.Idx → EReal) : S100000x64.Idx → EReal :=
  act (F := Ideal) (mid (F := Ideal) (proj X W) e) b a

end Cert.KernelIdeal.Spec

end
-- ==== Proof.HostChain.lean ====
/-
  The contents of the second kernel's three input arrays when it is entered, read through the host operations that
  run between the two kernels: the aggregated array is the edge aggregation `Spec.mid` of what the first kernel left
  in its result array and of the edge list; the bias and the slope arrive reshaped to [1, 64] and [1, 1].
-/
import proofs.«121923_j15762529976321_1_alg».proof.Proof.Gen.KernelIdeal.Frame
import proofs.«121923_j15762529976321_1_alg».proof.Proof.Spec
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The edge list is not written by the first kernel: it is as launched when the host operations read it. -/
theorem edges_kept (c : Dev nD) : W1 m ρ c (Proc.devRef .tc main_arg1) = m ((c.tc : Thread nD τ).loc main_arg1) :=
  W1_of_ne m ρ c main_arg1 (by decide)
theorem bias_kept (c : Dev nD) : W1 m ρ c (Proc.devRef .tc main_arg3) = m ((c.tc : Thread nD τ).loc main_arg3) :=
  W1_of_ne m ρ c main_arg3 (by decide)
theorem slope_kept (c : Dev nD) : W1 m ρ c (Proc.devRef .tc main_arg4) = m ((c.tc : Thread nD τ).loc main_arg4) :=
  W1_of_ne m ρ c main_arg4 (by decide)

set_option maxHeartbeats 4000000 in
/-- The aggregated array the second kernel reads is the edge aggregation of the first kernel's result array. -/
theorem agg_entry (c : Dev nD) :
    W4 m ρ c (Proc.devRef .tc main_v42) = Spec.mid (F := F) (W1 m ρ c (Proc.devRef .tc main_v0)) (m ((c.tc : Thread nD τ).loc main_arg1)) := by
  rw [← edges_kept m ρ c]
  show StableHlo.after hostOps1_2 (StableHlo.after hostOps1_1 (StableHlo.after hostOps1 (W1 m ρ c))) (Proc.devRef .tc main_v42) = _
  generalize W1 m ρ c = Z
  simp only [hostOps1, hostOps1_1, hostOps1_2]
  after_results_simp
  unfold Spec.mid
  rfl

/-- The bias arrives as a [1, 64] array. -/
theorem bias_entry (c : Dev nD) :
    W4 m ρ c (Proc.devRef .tc main_v43) = shapeCast S1x64 (m ((c.tc : Thread nD τ).loc main_arg3)) shapeCasts_S64_S1x64 := by
  rw [← bias_kept m ρ c]
  show StableHlo.after hostOps1_2 (StableHlo.after hostOps1_1 (StableHlo.after hostOps1 (W1 m ρ c))) (Proc.devRef .tc main_v43) = _
  generalize W1 m ρ c = Z
  simp only [hostOps1, hostOps1_1, hostOps1_2]
  after_results_simp
  rfl

/-- The slope arrives as a [1, 1] array. -/
theorem slope_entry (c : Dev nD) :
    W4 m ρ c (Proc.devRef .tc main_v44) = shapeCast S1x1 (m ((c.tc : Thread nD τ).loc main_arg4)) shapeCasts_S1_S1x1 := by
  rw [← slope_kept m ρ c]
  show StableHlo.after hostOps1_2 (StableHlo.after hostOps1_1 (StableHlo.after hostOps1 (W1 m ρ c))) (Proc.devRef .tc main_v44) = _
  generalize W1 m ρ c = Z
  simp only [hostOps1, hostOps1_1, hostOps1_2]
  after_results_simp
  rfl

end Cert.KernelIdeal.Hand

end
-- ==== Proof.Region0.lean ====
/-
  The first kernel's result array as one function of its two input arrays.

  The first kernel runs on a grid of 50 points.  At point t it reads rows 2000 t … 2000 t + 1999 of the feature array
  (100000 × 512) and the whole weight array (512 × 64), and stores the product of the two blocks, accumulated from zero,
  as rows 2000 t … 2000 t + 1999 of its result array (100000 × 64).  On the extended reals the narrowing of both blocks
  to the shorter float format is the identity, and the product's entry (p, q) is the sum over k < 512 of the row block's
  (p, k) times the weight's (k, q).  So entry (p, q) of point t's block is entry (2000 t + p, q) of the dense projection
  of the two arrays; row r of the result lies in the block of point r / 2000, every point writes its block back, and the
  result array therefore ends holding the projection.

  In order: the product read at an entry (the four axis lemmas of its dimension record, then the sum re-indexed through
  the one contracted axis); the block index of each window at a grid point; each input block read as entries of its
  array; an entry of the stored block as an entry of the projection; the block a point writes back; which entries of the
  result array a point's block holds, and that the blocks cover the array; the array after the region.
-/
import proofs.«121923_j15762529976321_1_alg».proof.Proof.Gen.KernelIdeal.Frame
import proofs.«121923_j15762529976321_1_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen Idealize.ShloMosaic Idealize.ShloMosaic.TcCoe Idealize.SL.Sem
open Idealize.ShloMosaic.ValueIdx
open Idealize.ShloMosaic.Pipeline (Dat)
variable (V : (c : Dev nD) → (b : Ref sig .tc) → Buf (Elt Ideal) ((c : Thread nD τ).loc b))

namespace Region0

/-- Row axis of the left operand: the output's row. -/
theorem lhs_axis0 (i : S2000x64.Idx) (q : dot_S2000x512_S512x64_S2000x64_1_0_0_1_n_n.contr.Idx) :
    (dot_S2000x512_S512x64_S2000x64_1_0_0_1_n_n.lhsIdx i q 0).val = (i 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl
/-- Column axis of the left operand: the contraction coordinate. -/
theorem lhs_axis1 (i : S2000x64.Idx) (q : dot_S2000x512_S512x64_S2000x64_1_0_0_1_n_n.contr.Idx) :
    (dot_S2000x512_S512x64_S2000x64_1_0_0_1_n_n.lhsIdx i q 1).val = (q ⟨0, by decide⟩).val :=
  dot_S2000x512_S512x64_S2000x64_1_0_0_1_n_n.lhsIdx_val_of_single rfl i q
/-- Row axis of the right operand: the contraction coordinate. -/
theorem rhs_axis0 (i : S2000x64.Idx) (q : dot_S2000x512_S512x64_S2000x64_1_0_0_1_n_n.contr.Idx) :
    (dot_S2000x512_S512x64_S2000x64_1_0_0_1_n_n.rhsIdx i q 0).val = (q ⟨0, by decide⟩).val :=
  dot_S2000x512_S512x64_S2000x64_1_0_0_1_n_n.rhsIdx_val_of_single rfl i q
/-- Column axis of the right operand: the output's column. -/
theorem rhs_axis1 (i : S2000x64.Idx) (q : dot_S2000x512_S512x64_S2000x64_1_0_0_1_n_n.contr.Idx) :
    (dot_S2000x512_S512x64_S2000x64_1_0_0_1_n_n.rhsIdx i q 1).val = (i 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

/-- The body's stored value at row p, column q of its block: the sum over k of the row block's (p, k) times the weight's (k, q). -/
theorem pay_apply (x0 : Vec Ideal S2000x512 .f32) (x1 : Vec Ideal S512x64 .f32) (p : Fin 2000) (q : Fin 64) :
    k0_pay1 (F := Ideal) x0 x1 (ix2 p q) = ∑ k : Fin 512, x0 (ix2 p k) * x1 (ix2 k q) := by
  unfold k0_pay1
  simp only [matmul]
  rw [Ideal.matmul_constant_zero_apply, ← Equiv.sum_comp (ValueIdx.contrEquiv1 dot_S2000x512_S512x64_S2000x64_1_0_0_1_n_n 512 rfl rfl).symm]
  refine Finset.sum_congr rfl fun k _ => ?_
  have hk := ValueIdx.contrEquiv1_symm_val dot_S2000x512_S512x64_S2000x64_1_0_0_1_n_n 512 rfl rfl k
  have el : dot_S2000x512_S512x64_S2000x64_1_0_0_1_n_n.lhsIdx (ix2 p q) ((ValueIdx.contrEquiv1 dot_S2000x512_S512x64_S2000x64_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2000x512_S512x64_S2000x64_1_0_0_1_n_n.rhsIdx (ix2 p q) ((ValueIdx.contrEquiv1 dot_S2000x512_S512x64_S2000x64_1_0_0_1_n_n 512 rfl rfl).symm k) = ix2 k q := funext fun a => Fin.ext (by
    match a with
    | ⟨0, _⟩ => exact (rhs_axis0 _ _).trans hk
    | ⟨1, _⟩ => exact rhs_axis1 _ _)
  rw [ValueIdx.truncf_apply, ValueIdx.truncf_apply, el, er]

/-- The zero offsets of a whole-buffer access, as the constant function. -/
theorem zeroOff : (![0, 0] : Fin 2 → Nat) = fun _ => 0 := funext fun a => by fin_cases a <;> rfl

/-- The block indices at grid point t: the feature window and the result window are at row block t, the weight
    window is the whole array. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 2000 t … 2000 t + 1999 of the feature array. -/
theorem featBlock_apply (c : Dev nD) (t : Fin cfg0.N) (x : S2000x512.Idx) (k : S100000x512.Idx)
    (hk0 : (k 0).val = 2000 * t.val + (x 0).val) (hk1 : (k 1).val = (x 1).val) :
    (iblk0 V c 0 t : Vec Ideal S2000x512 .f32) x = (V c main_arg0 : S100000x512.Idx → EReal) k := by
  obtain ⟨e0, e1, -⟩ := blockIdx t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 512 + 1 * (x 1).val = (k 1).val; rw [e1, hk1]; omega

/-- The weight window's block at every point is the whole weight array. -/
theorem weightBlock_apply (c : Dev nD) (t : Fin cfg0.N) (x : S512x64.Idx) (k : S512x64.Idx)
    (hk0 : (k 0).val = (x 0).val) (hk1 : (k 1).val = (x 1).val) :
    (iblk0 V c 1 t : Vec Ideal S512x64 .f32) x = (V c main_arg2 : S512x64.Idx → EReal) k := by
  obtain ⟨-, -, e2, e3, -⟩ := blockIdx t
  unfold iblk0
  rw [View.read_apply]
  show V c main_arg2 _ = V c main_arg2 _
  congr 1
  funext a
  apply Fin.ext
  match a with
  | ⟨0, _⟩ => show win0_1.index t 0 * 512 + 1 * (x 0).val = (k 0).val; rw [e2, hk0]; omega
  | ⟨1, _⟩ => show win0_1.index t 1 * 64 + 1 * (x 1).val = (k 1).val; rw [e3, hk1]; omega

/-- The body's stored value at (p, q) of point t's block is the projection's entry at row 2000 t + p, column q. -/
theorem blockEntry (c : Dev nD) (t : Fin cfg0.N) (p : Fin 2000) (q : Fin 64) (i : S100000x64.Idx)
    (hi0 : (i 0).val = 2000 * t.val + p.val) (hi1 : (i 1).val = q.val) :
    k0_pay1 (F := Ideal) (iblk0 V c 0 t) (iblk0 V c 1 t) (ix2 p q) = Spec.proj (V c main_arg0) (V c main_arg2) i := by
  refine (pay_apply _ _ p q).trans ?_
  unfold Spec.proj
  refine Finset.sum_congr rfl fun k _ => ?_
  have hf := featBlock_apply V c t (ix2 p k) (Spec.featAt ⟨(i 0).val, (i 0).isLt⟩ k) hi0 rfl
  have hw := weightBlock_apply V c t (ix2 k q) (Spec.weightAt k ⟨(i 1).val, (i 1).isLt⟩) rfl hi1
  exact congrArg₂ (· * ·) hf hw

/-- One entry of what point t writes back: the projection's entry under the block's index. -/
theorem flushedEntry (c : Dev nD) (t : Fin cfg0.N) (j : S2000x64.Idx) :
    k0_pay1 (F := Ideal) (iblk0 V c 0 t) (iblk0 V c 1 t) j
      = Spec.proj (V c main_arg0) (V c main_arg2) (((cfg0.win 2).blk t).view.emb j) := by
  obtain ⟨-, -, -, -, e4, e5⟩ := blockIdx t
  refine (congrArg (k0_pay1 (F := Ideal) (iblk0 V c 0 t) (iblk0 V c 1 t)) (eq_ix2 j)).trans ?_
  refine blockEntry V c t (j 0) (j 1) _ ?_ ?_
  · show win0_2.index t 0 * 2000 + 1 * (j 0).val = 2000 * t.val + (j 0).val
    rw [e4]; omega
  · show win0_2.index t 1 * 64 + 1 * (j 1).val = (j 1).val
    rw [e5]; omega

/-- What point t writes back is block t of the projection of the two input arrays as the region found them. -/
theorem flushed_proj (c : Dev nD) (t : Fin cfg0.N) :
    (dat0 (F := Ideal) V c).flushed 2 t
      = ((cfg0.win 2).blk t).view.read (Elt Ideal) (Spec.proj (V c main_arg0) (V c main_arg2)) := by
  show (cfg0.win 2).cut (grid0.coords t) ((dat0 V c).after 2 t) = _
  rw [after0_2]
  unfold out0_2
  rw [View.canon_unit_zero zeroOff]
  simp only [View.ld_unit_zero (S := S2000x512) zeroOff, View.ld_unit_zero (S := S512x64) zeroOff]
  funext j
  rw [View.read_apply]
  exact flushedEntry V c t j

/-- An index of the result array is in point t's block iff each coordinate is in the block's range on its axis. -/
theorem mem_resultBlock (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

/-- Every index of the result array is in the block of the point its row falls in: row r is in block r / 2000. -/
theorem resultCover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  let t : Fin cfg0.N := ⟨(i 0).val / 2000, by rw [hN]; omega⟩
  obtain ⟨-, -, -, -, e4, e5⟩ := blockIdx t
  have ht : t.val = (i 0).val / 2000 := rfl
  refine ⟨t, flush0_2 t, ?_⟩
  rw [mem_resultBlock]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 64 ≤ (i 1).val ∧ (i 1).val < win0_2.index t (1 : Fin 2) * 64 + 64; rw [e5]; omega

end Region0

/-- After region 0 its result array holds the dense projection of the two input arrays as the region found them. -/
theorem proj_array (c : Dev nD) :
    (dat0 (F := Ideal) V c).arrAt 2 cfg0.N = Spec.proj (V c main_arg0) (V c main_arg2) :=
  (dat0 (F := Ideal) V c).arrAt_eq_of_cover 2 (Spec.proj (V c main_arg0) (V c main_arg2))
    (fun t _ => Region0.flushed_proj V c t) Region0.resultCover

end Cert.KernelIdeal.Hand
end
-- ==== Proof.Region1.lean ====
/-
  The second kernel's result array as one function of its three input arrays.

  The kernel runs on ten row blocks of 10000 rows.  At block t it reads rows 10000·t … 10000·t + 9999 of the
  aggregated array, the whole [1, 64] bias and the whole [1, 1] slope, and stores, entry by entry, v = y + b when
  v ≥ 0 and a · v otherwise.  So what block t writes back is block t of `Spec.act` of the whole arrays, the ten blocks
  tile the result array, and the array ends holding `Spec.act`.
-/
import proofs.«121923_j15762529976321_1_alg».proof.Proof.Gen.KernelIdeal.Frame
import proofs.«121923_j15762529976321_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- One entry of bias + parametric ReLU, from the aggregated entry `y`, the bias entry `β` and the slope `α`. -/
def actAt (y β α : Elt F .f32) : Elt F .f32 :=
  Scalar.select (FloatOps.cmpf .oge (FloatOps.addf y β) (FloatOps.ofBits .f32 0x00000000#32)) (FloatOps.addf y β) (FloatOps.mulf α (FloatOps.addf y β))

/-- `Spec.act` at an index whose column is `col`. -/
theorem act_apply (y : S100000x64.Idx → Elt F .f32) (b : S64.Idx → Elt F .f32) (a : S1.Idx → Elt F .f32) (i : S100000x64.Idx)
    (col : Fin 64) (hcol : (i 1).val = col.val) :
    Spec.act y b a i = actAt (y i) (b (ix1 col)) (a (ix1 ⟨0, Nat.one_pos⟩)) := by
  unfold Spec.act actAt
  have e : (⟨(i 1).val, (i 1).isLt⟩ : Fin 64) = col := Fin.ext hcol
  rw [e]

/-- The body's stored value at an entry of its block: the entry of the aggregated block, the bias at the entry's
    column (the [1, 64] block broadcast along the rows) and the one slope. -/
theorem combine_payload (x0 : Vec F S10000x64 .f32) (x1 : Vec F S1x64 .f32) (x2 : Vec F S1x1 .f32) (j : S10000x64.Idx)
    (col : Fin 64) (hcol : (j 1).val = col.val) :
    k1_pay1 x0 x1 x2 j = actAt (x0 j) (x1 (ix2 ⟨0, Nat.one_pos⟩ col)) (x2 (ix2 ⟨0, Nat.one_pos⟩ ⟨0, Nat.one_pos⟩)) := by
  unfold k1_pay1 actAt
  simp only [shapeCast_self]
  have hb : broadcastTo S10000x64 x1 broadcasts_S1x64_S10000x64 j = x1 (ix2 ⟨0, Nat.one_pos⟩ col) :=
    broadcastTo_apply x1 broadcasts_S1x64_S10000x64 j (ix2 ⟨0, Nat.one_pos⟩ col) (fun a => match a with
      | ⟨0, _⟩ => by show (0 : Nat) = if (1 : Nat) = 1 then 0 else _; rw [if_pos rfl]
      | ⟨1, _⟩ => by show col.val = if (64 : Nat) = 1 then 0 else (j 1).val; rw [if_neg (by decide), hcol])
  show Scalar.select (FloatOps.cmpf .oge (FloatOps.addf (x0 j) (broadcastTo S10000x64 x1 broadcasts_S1x64_S10000x64 j)) _)
      (FloatOps.addf (x0 j) (broadcastTo S10000x64 x1 broadcasts_S1x64_S10000x64 j))
      (FloatOps.mulf _ (FloatOps.addf (x0 j) (broadcastTo S10000x64 x1 broadcasts_S1x64_S10000x64 j))) = _
  have hs : extractAt ![0, 0] x2 inpos_S1x1_p0_0 = x2 (ix2 ⟨0, Nat.one_pos⟩ ⟨0, Nat.one_pos⟩) := by
    unfold extractAt
    refine congrArg x2 (funext fun a => Fin.ext ?_)
    match a with
    | ⟨0, _⟩ => rfl
    | ⟨1, _⟩ => rfl
  rw [hb, hs]
  rfl

/-- The printed index maps over the ten points: the aggregated array and the result move together down the rows, the
    bias and the slope stay at block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An entry of the aggregated block at point `t` is the array's entry 10000·t rows further down. -/
theorem agg_block (c : Dev nD) (t : Fin cfg1.N) (j : S10000x64.Idx) (i : S100000x64.Idx)
    (h0 : (i 0).val = t.val * 10000 + (j 0).val) (h1 : (i 1).val = (j 1).val) :
    (iblk1 V c 0 t : Vec F S10000x64 .f32) j = (V c main_v42 : S100000x64.Idx → Elt F .f32) i := by
  obtain ⟨e0, e1, -⟩ := index_facts t
  unfold iblk1
  rw [View.read_apply]
  show (V c main_v42 : S100000x64.Idx → Elt F .f32) (((cfg1.win 0).blk t).view.emb j) = _
  refine congrArg _ (funext fun a => Fin.ext ?_)
  match a with
  | ⟨0, _⟩ => show win1_0.index t (0 : Fin 2) * 10000 + 1 * (j 0).val = (i 0).val; rw [e0, h0]; omega
  | ⟨1, _⟩ => show win1_0.index t (1 : Fin 2) * 64 + 1 * (j 1).val = (i 1).val; rw [e1, h1]; omega

/-- The bias block at any point is the whole [1, 64] array. -/
theorem bias_block (c : Dev nD) (t : Fin cfg1.N) (y : S1x64.Idx) :
    (iblk1 V c 1 t : Vec F S1x64 .f32) y = (V c main_v43 : S1x64.Idx → Elt F .f32) y := by
  obtain ⟨-, -, e0, e1, -⟩ := index_facts t
  unfold iblk1
  rw [View.read_apply]
  show (V c main_v43 : S1x64.Idx → Elt F .f32) (((cfg1.win 1).blk t).view.emb y) = _
  refine congrArg _ (funext fun a => Fin.ext ?_)
  match a with
  | ⟨0, _⟩ => show win1_1.index t (0 : Fin 2) * 1 + 1 * (y 0).val = (y 0).val; rw [e0]; omega
  | ⟨1, _⟩ => show win1_1.index t (1 : Fin 2) * 64 + 1 * (y 1).val = (y 1).val; rw [e1]; omega

/-- The slope block at any point is the whole [1, 1] array. -/
theorem slope_block (c : Dev nD) (t : Fin cfg1.N) (y : S1x1.Idx) :
    (iblk1 V c 2 t : Vec F S1x1 .f32) y = (V c main_v44 : S1x1.Idx → Elt F .f32) y := by
  obtain ⟨-, -, -, -, e0, e1, -⟩ := index_facts t
  unfold iblk1
  rw [View.read_apply]
  show (V c main_v44 : S1x1.Idx → Elt F .f32) (((cfg1.win 2).blk t).view.emb y) = _
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 1 + 1 * (y 1).val = (y 1).val; rw [e1]; omega

variable (b : S64.Idx → Elt F .f32) (a : S1.Idx → Elt F .f32)

/-- What point `t` writes back is block `t` of `Spec.act` of the aggregated array, the bias and the slope, when the
    [1, 64] and [1, 1] arrays the kernel reads hold the bias `b` and the slope `a`. -/
theorem flushed_act (c : Dev nD)
    (hb : ∀ y : S1x64.Idx, (V c main_v43 : S1x64.Idx → Elt F .f32) y = b (ix1 ⟨(y 1).val, (y 1).isLt⟩))
    (ha : ∀ y : S1x1.Idx, (V c main_v44 : S1x1.Idx → Elt F .f32) y = a (ix1 ⟨0, Nat.one_pos⟩))
    (t : Fin cfg1.N) :
    (dat1 V c).flushed 3 t = ((cfg1.win 3).blk t).view.read (Elt F) (Spec.act (V c main_v42) b a) := by
  obtain ⟨-, -, -, -, -, -, e0, e1⟩ := index_facts t
  show (cfg1.win 3).cut (grid1.coords t) ((dat1 V c).after 3 t) = _
  rw [after1_3]
  unfold out1_3
  rw [View.canon_unit_zero zero_offsets]
  simp only [View.ld_unit_zero (S := S10000x64) zero_offsets, View.ld_unit_zero (S := S1x64) zero_offsets, View.ld_unit_zero (S := S1x1) zero_offsets]
  funext j
  have hj1 : (j 1).val < 64 := (j 1).isLt
  have c0 : ((((cfg1.win 3).blk t).view.emb j) 0).val = t.val * 10000 + (j 0).val := by
    show win1_3.index t (0 : Fin 2) * 10000 + 1 * (j 0).val = _; rw [e0]; omega
  have c1 : ((((cfg1.win 3).blk t).view.emb j) 1).val = (j 1).val := by
    show win1_3.index t (1 : Fin 2) * 64 + 1 * (j 1).val = _; rw [e1]; omega
  show k1_pay1 (iblk1 V c 0 t) (iblk1 V c 1 t) (iblk1 V c 2 t) j = Spec.act (V c main_v42) b a (((cfg1.win 3).blk t).view.emb j)
  rw [combine_payload (iblk1 V c 0 t) (iblk1 V c 1 t) (iblk1 V c 2 t) j ⟨(j 1).val, hj1⟩ rfl,
    act_apply (V c main_v42) b a _ ⟨(j 1).val, hj1⟩ c1,
    agg_block V c t j _ c0 c1, bias_block V c t, slope_block V c t, hb, ha]

/-- An index of the result array is in point `t`'s block iff each coordinate is in the block's range on its axis. -/
theorem mem_block (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- The ten row blocks tile the result array: row r lies in block r / 10000. -/
theorem blocks_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, -, -, e0, e1⟩ := index_facts t
  refine ⟨t, flush1_3 t, ?_⟩
  rw [mem_block]
  intro a
  match a with
  | ⟨0, _⟩ =>
    show win1_3.index t (0 : Fin 2) * 10000 ≤ (i 0).val ∧ (i 0).val < win1_3.index t (0 : Fin 2) * 10000 + 10000
    rw [e0]; show (i 0).val / 10000 * 10000 ≤ (i 0).val ∧ (i 0).val < (i 0).val / 10000 * 10000 + 10000; omega
  | ⟨1, _⟩ =>
    show win1_3.index t (1 : Fin 2) * 64 ≤ (i 1).val ∧ (i 1).val < win1_3.index t (1 : Fin 2) * 64 + 64
    rw [e1]; omega

/-- After the second kernel its result array holds `Spec.act` of the aggregated array it found, the bias and the slope. -/
theorem act_array (c : Dev nD)
    (hb : ∀ y : S1x64.Idx, (V c main_v43 : S1x64.Idx → Elt F .f32) y = b (ix1 ⟨(y 1).val, (y 1).isLt⟩))
    (ha : ∀ y : S1x1.Idx, (V c main_v44 : S1x1.Idx → Elt F .f32) y = a (ix1 ⟨0, Nat.one_pos⟩)) :
    (dat1 V c).arrAt 3 cfg1.N = Spec.act (V c main_v42) b a :=
  (dat1 V c).arrAt_eq_of_cover 3 (Spec.act (V c main_v42) b a) (fun t _ => flushed_act V b a c hb ha t) blocks_cover

end Cert.KernelIdeal.Hand

end
-- ==== Proof.KernelValue.lean ====
/-
  The kernel program's run, read: its result array ends holding `Spec.result` of the five argument arrays.

  The first kernel leaves the dense projection in its result array; the host operations between the kernels turn it
  into the edge aggregation and reshape the bias and the slope; the second kernel leaves bias + parametric ReLU of
  that in the program's result array.
-/
import proofs.«121923_j15762529976321_1_alg».proof.Proof.KernelRun
import proofs.«121923_j15762529976321_1_alg».proof.Proof.HostChain
import proofs.«121923_j15762529976321_1_alg».proof.Proof.Region0
import proofs.«121923_j15762529976321_1_alg».proof.Proof.Region1
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- The [1, 64] array the second kernel reads holds the bias: entry (0, j) is b[j]. -/
theorem bias_read (c : Dev nD) (y : S1x64.Idx) :
    (V4 m ρ c main_v43 : S1x64.Idx → EReal) y = (m ((c.tc : Thread nD τ).loc main_arg3) : S64.Idx → EReal) (ix1 ⟨(y 1).val, (y 1).isLt⟩) := by
  show (W4 m ρ c (Proc.devRef .tc main_v43) : S1x64.Idx → EReal) y = _
  rw [bias_entry]
  refine shapeCast_apply _ shapeCasts_S64_S1x64 y _ ?_
  rw [Shape.rowMajor_val_two, Shape.rowMajor_val_one]
  have h0 : (y 0).val < 1 := (y 0).isLt
  show (y 1).val = (y 0).val * 64 + (y 1).val
  omega

/-- The [1, 1] array the second kernel reads holds the slope. -/
theorem slope_read (c : Dev nD) (y : S1x1.Idx) :
    (V4 m ρ c main_v44 : S1x1.Idx → EReal) y = (m ((c.tc : Thread nD τ).loc main_arg4) : S1.Idx → EReal) (ix1 ⟨0, Nat.one_pos⟩) := by
  show (W4 m ρ c (Proc.devRef .tc main_v44) : S1x1.Idx → EReal) y = _
  rw [slope_entry]
  refine shapeCast_apply _ shapeCasts_S1_S1x1 y _ ?_
  rw [Shape.rowMajor_val_two, Shape.rowMajor_val_one]
  have h0 : (y 0).val < 1 := (y 0).isLt
  have h1 : (y 1).val < 1 := (y 1).isLt
  show 0 = (y 0).val * 1 + (y 1).val
  omega

/-- What the first kernel leaves in its result array: the dense projection of the features by the weights. -/
theorem first_result (c : Dev nD) :
    W1 m ρ c (Proc.devRef .tc main_v0) = Spec.proj (m ((c.tc : Thread nD τ).loc main_arg0)) (m ((c.tc : Thread nD τ).loc main_arg2)) :=
  (W1_arr m ρ c 2).trans (proj_array (V0 m ρ) c)

/-- The program's result array after the run is the specification's function of the arguments. -/
theorem result_array (c : Dev nD) :
    W5 m ρ c (Proc.devRef .tc main_v45) = Spec.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (W5_arr m ρ c 3).trans ?_
  rw [act_array (V4 m ρ) (m ((c.tc : Thread nD τ).loc main_arg3)) (m ((c.tc : Thread nD τ).loc main_arg4)) c (bias_read m ρ c) (slope_read m ρ c)]
  show Spec.act (W4 m ρ c (Proc.devRef .tc main_v42)) _ _ = _
  rw [agg_entry, first_result]
  rfl

/-- The run of the kernel program: it terminates, nothing faulting, with the result array at `Spec.result` of the
    arguments and the arguments unchanged. -/
theorem run : θ_run defs (onTc (τ := τ) (main (F := Ideal))) ⟨m, fun _ => 0, ρ⟩ (fun r => ∀ c : Dev nD,
      r.2.mem ((c.tc : Thread nD τ).loc main_v45) = Spec.result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_array m ρ c), (h c).2⟩) (Cert.KernelIdeal.RunP.run_main m ρ)

end Cert.KernelIdeal.Hand

end
-- ==== Proof.RefSide.lean ====
/-
  The reference program's result as the specification's function of the arguments.

  * `proj_eq`: the dot_general stage, read at an index, is the sum over k < 512 of X[r, k] · W[k, j]; its two operand
    indices are the specification's row/column indices coordinate by coordinate, so the stage is the dense projection.
  * `mid_eq`: from the dot_general's array to the second scatter-add, the reference applies the chain of host
    operations that the specification names as the edge aggregation (degree count by a scatter-add of ones, inverse
    square root where the degree is positive, the two endpoint factors gathered and multiplied, the gathered rows
    scaled, the scatter-add at the targets).  The two are the same tree of operations over records with the same
    literal fields, so the equation holds by unfolding the stages, for every float family.
  * `ref_result`: read at an index (r, j), the last stages add b[j] to the aggregated entry, compare with 0, and
    select between the sum and a[0] times the sum.  The reshape of the one-element slope array to a scalar reads its
    only element (both row-major positions are 0).  With the two equations above this is the specification's
    bias-and-parametric-ReLU of the edge aggregation of the dense projection.
-/
import proofs.«121923_j15762529976321_1_alg».proof.Proof.RefRead
import proofs.«121923_j15762529976321_1_alg».proof.Proof.Spec
import Idealize.ShloMosaic.Lib.Pipeline.Value
import Idealize.ShloMosaic.Lib.ValueIdx
set_option maxRecDepth 16384
noncomputable section
namespace Cert.ReferenceIdeal.Hand
open Cert.ReferenceIdeal Cert.ReferenceIdeal.Gen Cert.ReferenceIdeal.ReadP Idealize.ShloMosaic Idealize.ShloMosaic.TcCoe

/-- The reference's dot_general is the dense projection. -/
theorem proj_eq (x0 : (⟨S100000x512, .f32⟩ : BufTy).Contents (Elt Ideal)) (x2 : (⟨S512x64, .f32⟩ : BufTy).Contents (Elt Ideal)) :
    val_main_v4 (F := Ideal) x0 x2 = Cert.KernelIdeal.Spec.proj x0 x2 := by
  funext i
  rw [val_main_v4_apply]
  unfold Cert.KernelIdeal.Spec.proj
  refine Finset.sum_congr rfl fun k _ => ?_
  have el : lidx_main_v4 i k = Cert.KernelIdeal.Spec.featAt ⟨(i 0).val, (i 0).isLt⟩ k :=
    funext fun a => Fin.ext (by match a with | ⟨0, _⟩ => rfl | ⟨1, _⟩ => rfl)
  have er : ridx_main_v4 i k = Cert.KernelIdeal.Spec.weightAt k ⟨(i 1).val, (i 1).isLt⟩ :=
    funext fun a => Fin.ext (by match a with | ⟨0, _⟩ => rfl | ⟨1, _⟩ => rfl)
  rw [el, er]

/-- The reference's scatter-add stage is the edge aggregation of its dot_general. -/
theorem mid_eq {F : FTy → Type} [FloatOps F] (x0 : (⟨S100000x512, .f32⟩ : BufTy).Contents (Elt F)) (x1 : (⟨S2x3200000, .i32⟩ : BufTy).Contents (Elt F)) (x2 : (⟨S512x64, .f32⟩ : BufTy).Contents (Elt F)) :
    val_main_v42 (F := F) x0 x1 x2 = Cert.KernelIdeal.Spec.mid (F := F) (val_main_v4 (F := F) x0 x2) x1 := by
  unfold val_main_v42 val_main_v39 val_main_v36
  generalize val_main_v4 (F := F) x0 x2 = y
  unfold val_main_v41 val_main_v40 val_main_v38 val_main_v37 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v3 val_main_v2 val_main_v1 val_main_v0 val_main_call0_v1 val_main_call0_v0 val_main_cst val_main_cst_0 val_main_cst_1 val_main_cst_2 val_main_cst_3 val_main_cst_9 val_main_c val_main_c_4 val_main_c_5 val_main_c_6 val_main_c_7 val_main_c_8
  unfold Cert.KernelIdeal.Spec.mid
  rfl

/-- The reference's result is the specification's function of its five arguments. -/
theorem ref_result (x0 : (⟨S100000x512, .f32⟩ : BufTy).Contents (Elt Ideal)) (x1 : (⟨S2x3200000, .i32⟩ : BufTy).Contents (Elt Ideal)) (x2 : (⟨S512x64, .f32⟩ : BufTy).Contents (Elt Ideal)) (x3 : (⟨S64, .f32⟩ : BufTy).Contents (Elt Ideal)) (x4 : (⟨S1, .f32⟩ : BufTy).Contents (Elt Ideal)) :
    val_main_v51 (F := Ideal) x0 x1 x2 x3 x4 = Cert.KernelIdeal.Spec.result x0 x1 x2 x3 x4 := by
  funext i
  have h48 : val_main_v48 (F := Ideal) x4 (idx_main_v49 i) = x4 (ValueIdx.ix1 ⟨0, Nat.one_pos⟩) := by
    unfold val_main_v48
    exact shapeCast_apply x4 shapeCasts_S1_S_ (idx_main_v49 i) (ValueIdx.ix1 ⟨0, Nat.one_pos⟩)
      (by rw [Shape.rowMajor_val_one]; exact (Shape.rowMajorPi_zero _ _).symm)
  have e43 : idx_main_v43 (idx_main_v44 i) = ValueIdx.ix1 ⟨(i 1).val, (i 1).isLt⟩ :=
    funext fun a => Fin.ext (by match a with | ⟨0, _⟩ => rfl)
  rw [val_main_v51_apply, val_main_v47_apply, val_main_v50_apply, val_main_v45_apply, val_main_v46_apply,
    val_main_cst_10_apply, val_main_v49_apply, val_main_v44_apply, val_main_v43_apply, h48, e43, mid_eq, proj_eq]
  unfold Cert.KernelIdeal.Spec.result Cert.KernelIdeal.Spec.act
  rfl

end Cert.ReferenceIdeal.Hand
end
-- ==== Proof.lean ====
/-
  The certificate: a graph convolution (dense projection, degree-normalised edge aggregation) followed by bias and a
  parametric ReLU, as a program of two kernels around host operations, against the same computation written as
  one host program.

  On the extended reals both programs compute `Spec.result` of the five arguments.  The kernel program projects
  row block by row block (a product into a zero accumulator; the change of float format before it is the identity
  on the extended reals), the reference by one dot_general: entry by entry both are the sum over k of X[r, k] · W[k, j].
  Both then apply the same chain of host operations to the projected array (degree count, inverse square roots,
  gathered and scaled messages, scatter-add), carried as one function `Spec.mid`.  The kernel program's second kernel
  and the reference's last host operations both add the bias along the rows and select v or a · v by the sign of v.
  No law of arithmetic beyond these identities of terms is used, so the precondition (finite inputs) is never opened.

  The two word-level and ideal frames of the kernel program are the generated ones; the reference's frame is its
  run with the result dropped; the ideal pass rewrote nothing, so `preserves` is trivial.
-/
import proofs.«121923_j15762529976321_1_alg».proof.Defs
import proofs.«121923_j15762529976321_1_alg».proof.Proof.Gen.Kernel.Frame
import proofs.«121923_j15762529976321_1_alg».proof.Proof.Gen.KernelIdeal.Frame
import proofs.«121923_j15762529976321_1_alg».proof.Proof.Gen.ReferenceIdeal
import proofs.«121923_j15762529976321_1_alg».proof.Proof.Gen.Pre_finite_inputs
import proofs.«121923_j15762529976321_1_alg».proof.Proof.KernelValue
import proofs.«121923_j15762529976321_1_alg».proof.Proof.RefSide

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with their result arrays at `Spec.result` of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v51_eq, Cert.ReferenceIdeal.Hand.ref_result,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
